-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x1024 : Shape := ⟨3, ![512, 64, 1024]⟩
abbrev S_ : Shape := ⟨0, ![]⟩

class Facts : Prop where
  bcast_S_S512x64x1024 : S_.BroadcastsInDim S512x64x1024 (![] : Fin 0 → Fin S512x64x1024.rank)
  reducesTo_S512x64x1024_S_d0_1_2 : S512x64x1024.ReducesTo [0, 1, 2] S_
  h_S_ : 0 < S_.numel

variable [Facts]

def fn_part1 {F : FTy → Type} [FloatOps F] (main_v13 : IVec S_ 1) (main_v16 : IVec S512x64x1024 1) : IVec S_ 1 :=
  let main_c_5 : IVec S_ 1 := constantI S_ 1 1#1
  let main_v17 : IVec S_ 1 := (fun x v => Host.reduce IntOp.andi x v reducesTo_S512x64x1024_S_d0_1_2 h_S_) main_v16 main_c_5
  let main_v18 : IVec S_ 1 := andi main_v13 main_v17
  main_v18

def fn {F : FTy → Type} [FloatOps F] (main_arg0 : FVec F S512x64x1024 .f32) (main_arg1 : FVec F S512x64x1024 .f32) (main_arg2 : FVec F S512x64x1024 .f32) (main_arg3 : FVec F S512x64x1024 .f32) : IVec S_ 1 :=
  let main_v0 : FVec F S512x64x1024 .f32 := Host.absf main_arg0
  let main_cst : FVec F S_ .f32 := constant S_ .f32 0x7F800000#32
  let main_v1 : FVec F S512x64x1024 .f32 := broadcastInDim S512x64x1024 ![] bcast_S_S512x64x1024 main_cst
  let main_v2 : IVec S512x64x1024 1 := cmpf .olt main_v0 main_v1
  let main_c : IVec S_ 1 := constantI S_ 1 1#1
  let main_v3 : IVec S_ 1 := (fun x v => Host.reduce IntOp.andi x v reducesTo_S512x64x1024_S_d0_1_2 h_S_) main_v2 main_c
  let main_v4 : FVec F S512x64x1024 .f32 := Host.absf main_arg1
  let main_cst_0 : FVec F S_ .f32 := constant S_ .f32 0x7F800000#32
  let main_v5 : FVec F S512x64x1024 .f32 := broadcastInDim S512x64x1024 ![] bcast_S_S512x64x1024 main_cst_0
  let main_v6 : IVec S512x64x1024 1 := cmpf .olt main_v4 main_v5
  let main_c_1 : IVec S_ 1 := constantI S_ 1 1#1
  let main_v7 : IVec S_ 1 := (fun x v => Host.reduce IntOp.andi x v reducesTo_S512x64x1024_S_d0_1_2 h_S_) main_v6 main_c_1
  let main_v8 : IVec S_ 1 := andi main_v3 main_v7
  let main_v9 : FVec F S512x64x1024 .f32 := Host.absf main_arg2
  let main_cst_2 : FVec F S_ .f32 := constant S_ .f32 0x7F800000#32
  let main_v10 : FVec F S512x64x1024 .f32 := broadcastInDim S512x64x1024 ![] bcast_S_S512x64x1024 main_cst_2
  let main_v11 : IVec S512x64x1024 1 := cmpf .olt main_v9 main_v10
  let main_c_3 : IVec S_ 1 := constantI S_ 1 1#1
  let main_v12 : IVec S_ 1 := (fun x v => Host.reduce IntOp.andi x v reducesTo_S512x64x1024_S_d0_1_2 h_S_) main_v11 main_c_3
  let main_v13 : IVec S_ 1 := andi main_v8 main_v12
  let main_v14 : FVec F S512x64x1024 .f32 := Host.absf main_arg3
  let main_cst_4 : FVec F S_ .f32 := constant S_ .f32 0x7F800000#32
  let main_v15 : FVec F S512x64x1024 .f32 := broadcastInDim S512x64x1024 ![] bcast_S_S512x64x1024 main_cst_4
  let main_v16 : IVec S512x64x1024 1 := cmpf .olt main_v14 main_v15
  fn_part1 (F := F) main_v13 main_v16
-- ==== Kernel.lean ====
abbrev S512x64x1024 : Shape := ⟨3, ![512, 64, 1024]⟩
abbrev S512x1 : Shape := ⟨2, ![512, 1]⟩
abbrev S8x64x1024 : Shape := ⟨3, ![8, 64, 1024]⟩
abbrev S8x1 : Shape := ⟨2, ![8, 1]⟩
abbrev S8x64x64 : Shape := ⟨3, ![8, 64, 64]⟩
abbrev S8x64 : Shape := ⟨2, ![8, 64]⟩
abbrev S8x64x1 : Shape := ⟨3, ![8, 64, 1]⟩
abbrev S8 : Shape := ⟨1, ![8]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S512x64x1024, .f32⟩
  | .hbm, ⟨1, _⟩ => ⟨S512x64x1024, .f32⟩
  | .hbm, ⟨2, _⟩ => ⟨S512x64x1024, .f32⟩
  | .hbm, ⟨3, _⟩ => ⟨S512x64x1024, .f32⟩
  | .hbm, ⟨4, _⟩ => ⟨S512x1, .f32⟩
  | .hbm, ⟨5, _⟩ => ⟨S512, .f32⟩
  | .local _ .vmem, ⟨0, _⟩ => ⟨S8x64x1024, .f32⟩
  | .local _ .vmem, ⟨1, _⟩ => ⟨S8x64x1024, .f32⟩
  | .local _ .vmem, ⟨2, _⟩ => ⟨S8x64x1024, .f32⟩
  | .local _ .vmem, ⟨3, _⟩ => ⟨S8x64x1024, .f32⟩
  | .local _ .vmem, ⟨4, _⟩ => ⟨S8x64x1024, .f32⟩
  | .local _ .vmem, ⟨5, _⟩ => ⟨S8x64x1024, .f32⟩
  | .local _ .vmem, ⟨6, _⟩ => ⟨S8x64x1024, .f32⟩
  | .local _ .vmem, ⟨7, _⟩ => ⟨S8x64x1024, .f32⟩
  | .local _ .vmem, ⟨8, _⟩ => ⟨S8x1, .f32⟩
  | .local _ .vmem, ⟨9, _⟩ => ⟨S8x1, .f32⟩
  | _, _ => ⟨S512x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x64x1024_S8x64x1024_0_0_0 : ∀ a, (![0, 0, 0] : Fin 3 → Nat) a + S8x64x1024.size a ≤ S8x64x1024.size a
  h_S8x64x1024 : 0 < S8x64x1024.numel
  bitsLt_bf16_f32 : FTy.bits .bf16 < FTy.bits .f32
  reduces_S8x64x64_S8x64 : S8x64x64.Reduces [2] S8x64
  shapeCasts_S8x64_S8x64x1 : S8x64.ShapeCasts S8x64x1
  broadcasts_S8x64x1_S8x64x64 : S8x64x1.Broadcasts S8x64x64
  reduces_S8x64x1024_S8x64 : S8x64x1024.Reduces [2] S8x64
  broadcasts_S8x64x1_S8x64x1024 : S8x64x1.Broadcasts S8x64x1024
  reduces_S8x64_S8 : S8x64.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S512x1_S512 : S512x1.ShapeCasts S512
  dot_S8x64x1024_S8x64x1024_S8x64x64_2_2_1_1_0_0_wf : DotDims.WF S8x64x1024 S8x64x1024 S8x64x64 [2] [2] [1] [1] [0] [0]
  dot_S8x64x64_S8x64x1024_S8x64x1024_2_1_1_2_0_0_wf : DotDims.WF S8x64x64 S8x64x1024 S8x64x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1024.size a ≤ S512x64x1024.size a
  hwx0_0 : ∀ i : grid0.Coords, EltTy.bits .f32 = 32 ∨ (Rect.block (s := S512x64x1024) S8x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x1024.size a ≤ S512x64x1024.size a
  hwx0_1 : ∀ i : grid0.Coords, EltTy.bits .f32 = 32 ∨ (Rect.block (s := S512x64x1024) S8x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x1024.size a ≤ S512x64x1024.size a
  hwx0_2 : ∀ i : grid0.Coords, EltTy.bits .f32 = 32 ∨ (Rect.block (s := S512x64x1024) S8x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64x1024.size a ≤ S512x64x1024.size a
  hwx0_3 : ∀ i : grid0.Coords, EltTy.bits .f32 = 32 ∨ (Rect.block (s := S512x64x1024) S8x64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S512x1.size a
  hwx0_4 : ∀ i : grid0.Coords, EltTy.bits .f32 = 32 ∨ (Rect.block (s := S512x1) S8x1.size (cc0_transform_4 i) (hinb0_4 i)).WholeWords (EltTy.packing .f32)

variable [Facts₀]

def dot_S8x64x1024_S8x64x1024_S8x64x64_2_2_1_1_0_0 : DotDims S8x64x1024 S8x64x1024 S8x64x64 where
  lhsContracting := [2]
  rhsContracting := [2]
  lhsNonContracting := [1]
  rhsNonContracting := [1]
  lhsBatch := [0]
  rhsBatch := [0]
  wf := dot_S8x64x1024_S8x64x1024_S8x64x64_2_2_1_1_0_0_wf
def dot_S8x64x64_S8x64x1024_S8x64x1024_2_1_1_2_0_0 : DotDims S8x64x64 S8x64x1024 S8x64x1024 where
  lhsContracting := [2]
  rhsContracting := [1]
  lhsNonContracting := [1]
  rhsNonContracting := [2]
  lhsBatch := [0]
  rhsBatch := [0]
  wf := dot_S8x64x64_S8x64x1024_S8x64x1024_2_1_1_2_0_0_wf

abbrev win0_0 : Pipeline.Window sig grid0 :=
  Pipeline.Window.ofSpec (Memref.whole main_arg0) S8x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x64x1024 : Shape := ⟨3, ![512, 64, 1024]⟩
abbrev S512x64x64 : Shape := ⟨3, ![512, 64, 64]⟩
abbrev S_ : Shape := ⟨0, ![]⟩
abbrev S512x64 : Shape := ⟨2, ![512, 64]⟩
abbrev S512x64x1 : Shape := ⟨3, ![512, 64, 1]⟩
abbrev S512 : Shape := ⟨1, ![512]⟩

abbrev nBuf : Space → Nat
  | .hbm => 63
  | .vmem => 0
  | .smem => 0
  | _ => 0

abbrev bufTy : (tb : Table) → Fin (tcTables nBuf tb) → BufTy
  | .hbm, ⟨0, _⟩ => ⟨S512x64x1024, .f32⟩
  | .hbm, ⟨1, _⟩ => ⟨S512x64x1024, .f32⟩
  | .hbm, ⟨2, _⟩ => ⟨S512x64x1024, .f32⟩
  | .hbm, ⟨3, _⟩ => ⟨S512x64x1024, .f32⟩
  | .hbm, ⟨4, _⟩ => ⟨S512x64x64, .f32⟩
  | .hbm, ⟨5, _⟩ => ⟨S_, .f32⟩
  | .hbm, ⟨6, _⟩ => ⟨S512x64, .f32⟩
  | .hbm, ⟨7, _⟩ => ⟨S512x64x1, .f32⟩
  | .hbm, ⟨8, _⟩ => ⟨S_, .f32⟩
  | .hbm, ⟨9, _⟩ => ⟨S512x64x1, .f32⟩
  | .hbm, ⟨10, _⟩ => ⟨S512x64x1, .f32⟩
  | .hbm, ⟨11, _⟩ => ⟨S512x64x64, .f32⟩
  | .hbm, ⟨12, _⟩ => ⟨S512x64x64, .i1⟩
  | .hbm, ⟨13, _⟩ => ⟨S_, .f32⟩
  | .hbm, ⟨14, _⟩ => ⟨S_, .f32⟩
  | .hbm, ⟨15, _⟩ => ⟨S512x64x64, .f32⟩
  | .hbm, ⟨16, _⟩ => ⟨S512x64x64, .f32⟩
  | .hbm, ⟨17, _⟩ => ⟨S_, .f32⟩
  | .hbm, ⟨18, _⟩ => ⟨S512x64x64, .f32⟩
  | .hbm, ⟨19, _⟩ => ⟨S512x64x64, .f32⟩
  | .hbm, ⟨20, _⟩ => ⟨S_, .f32⟩
  | .hbm, ⟨21, _⟩ => ⟨S512x64, .f32⟩
  | .hbm, ⟨22, _⟩ => ⟨S_, .f32⟩
  | .hbm, ⟨23, _⟩ => ⟨S512x64, .f32⟩
  | .hbm, ⟨24, _⟩ => ⟨S512x64, .f32⟩
  | .hbm, ⟨25, _⟩ => ⟨S512x64x1, .f32⟩
  | .hbm, ⟨26, _⟩ => ⟨S512x64x64, .f32⟩
  | .hbm, ⟨27, _⟩ => ⟨S512x64x64, .f32⟩
  | .hbm, ⟨28, _⟩ => ⟨S512x64x64, .f32⟩
  | .hbm, ⟨29, _⟩ => ⟨S_, .f32⟩
  | .hbm, ⟨30, _⟩ => ⟨S512x64, .f32⟩
  | .hbm, ⟨31, _⟩ => ⟨S512x64x1, .f32⟩
  | .hbm, ⟨32, _⟩ => ⟨S512x64x64, .f32⟩
  | .hbm, ⟨33, _⟩ => ⟨S512x64x64, .f32⟩
  | .hbm, ⟨34, _⟩ => ⟨S512x64x1024, .f32⟩
  | .hbm, ⟨35, _⟩ => ⟨S512x64x1024, .f32⟩
  | .hbm, ⟨36, _⟩ => ⟨S_, .f32⟩
  | .hbm, ⟨37, _⟩ => ⟨S512x64, .f32⟩
  | .hbm, ⟨38, _⟩ => ⟨S512x64x1, .f32⟩
  | .hbm, ⟨39, _⟩ => ⟨S512x64x1, .f32⟩
  | .hbm, ⟨40, _⟩ => ⟨S_, .f32⟩
  | .hbm, ⟨41, _⟩ => ⟨S512x64x1, .f32⟩
  | .hbm, ⟨42, _⟩ => ⟨S512x64x1, .f32⟩
  | .hbm, ⟨43, _⟩ => ⟨S512x64x1024, .f32⟩
  | .hbm, ⟨44, _⟩ => ⟨S512x64x1024, .f32⟩
  | .hbm, ⟨45, _⟩ => ⟨S512x64x1024, .f32⟩
  | .hbm, ⟨46, _⟩ => ⟨S_, .f32⟩
  | .hbm, ⟨47, _⟩ => ⟨S512x64, .f32⟩
  | .hbm, ⟨48, _⟩ => ⟨S512x64x1, .f32⟩
  | .hbm, ⟨49, _⟩ => ⟨S512x64x1, .f32⟩
  | .hbm, ⟨50, _⟩ => ⟨S_, .f32⟩
  | .hbm, ⟨51, _⟩ => ⟨S512x64x1, .f32⟩
  | .hbm, ⟨52, _⟩ => ⟨S512x64x1, .f32⟩
  | .hbm, ⟨53, _⟩ => ⟨S512x64x1024, .f32⟩
  | .hbm, ⟨54, _⟩ => ⟨S512x64x1024, .f32⟩
  | .hbm, ⟨55, _⟩ => ⟨S512x64x1024, .f32⟩
  | .hbm, ⟨56, _⟩ => ⟨S_, .f32⟩
  | .hbm, ⟨57, _⟩ => ⟨S512x64, .f32⟩
  | .hbm, ⟨58, _⟩ => ⟨S_, .f32⟩
  | .hbm, ⟨59, _⟩ => ⟨S512, .f32⟩
  | .hbm, ⟨60, _⟩ => ⟨S_, .f32⟩
  | .hbm, ⟨61, _⟩ => ⟨S512, .f32⟩
  | .hbm, ⟨62, _⟩ => ⟨S512, .f32⟩
  | _, _ => ⟨S512x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_call1_v2 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_v0 : Ref sig .tc := ⟨.hbm, 45, rfl⟩
abbrev main_call2_cst : Ref sig .tc := ⟨.hbm, 46, rfl⟩
abbrev main_call2_v1 : Ref sig .tc := ⟨.hbm, 47, rfl⟩
abbrev main_call2_v2 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩

abbrev nD : Nat := 1
abbrev τ : Topo := Topo.v7x

variable {F : FTy → Type} [FloatOps F]

class Facts₀ : Prop where
  reducesTo_S512x64x64_S512x64_d2 : S512x64x64.ReducesTo [2] S512x64
  h_S_ : 0 < S_.numel
  bcast_S512x64_S512x64x1_0_1 : S512x64.BroadcastsInDim S512x64x1 (![0, 1] : Fin 2 → Fin S512x64x1.rank)
  bcast_S_S512x64x1 : S_.BroadcastsInDim S512x64x1 (![] : Fin 0 → Fin S512x64x1.rank)
  bcast_S512x64x1_S512x64x64_0_1_2 : S512x64x1.BroadcastsInDim S512x64x64 (![0, 1, 2] : Fin 3 → Fin S512x64x64.rank)
  bcast_S_S512x64x64 : S_.BroadcastsInDim S512x64x64 (![] : Fin 0 → Fin S512x64x64.rank)
  bcast_S_S512x64 : S_.BroadcastsInDim S512x64 (![] : Fin 0 → Fin S512x64.rank)
  reducesTo_S512x64x1024_S512x64_d2 : S512x64x1024.ReducesTo [2] S512x64
  bcast_S512x64x1_S512x64x1024_0_1_2 : S512x64x1.BroadcastsInDim S512x64x1024 (![0, 1, 2] : Fin 3 → Fin S512x64x1024.rank)
  reducesTo_S512x64_S512_d1 : S512x64.ReducesTo [1] S512
  bcast_S_S512 : S_.BroadcastsInDim S512 (![] : Fin 0 → Fin S512.rank)
  dot_S512x64x1024_S512x64x1024_S512x64x64_2_2_1_1_0_0_wf : DotDims.WF S512x64x1024 S512x64x1024 S512x64x64 [2] [2] [1] [1] [0] [0]
  dot_S512x64x64_S512x64x1024_S512x64x1024_2_1_1_2_0_0_wf : DotDims.WF S512x64x64 S512x64x1024 S512x64x1024 [2] [1] [1] [2] [0] [0]

variable [Facts₀]

def dot_S512x64x1024_S512x64x1024_S512x64x64_2_2_1_1_0_0 : DotDims S512x64x1024 S512x64x1024 S512x64x64 where
  lhsContracting := [2]
  rhsContracting := [2]
  lhsNonContracting := [1]
  rhsNonContracting := [1]
  lhsBatch := [0]
  rhsBatch := [0]
  wf := dot_S512x64x1024_S512x64x1024_S512x64x64_2_2_1_1_0_0_wf
def dot_S512x64x64_S512x64x1024_S512x64x1024_2_1_1_2_0_0 : DotDims S512x64x64 S512x64x1024 S512x64x1024 where
  lhsContracting := [2]
  rhsContracting := [1]
  lhsNonContracting := [1]
  rhsNonContracting := [2]
  lhsBatch := [0]
  rhsBatch := [0]
  wf := dot_S512x64x64_S512x64x1024_S512x64x1024_2_1_1_2_0_0_wf

class Facts : Prop extends Facts₀ where

variable [Facts]
-- ==== Proof.Spec.lean ====
/-
  The per-batch mathematics shared by both programs, over the extended reals.

  For ONE batch element the inputs are four 64 × 1024 matrices: the masked region and word
  embeddings (rm, wm) and the raw ones (rr, wr).  The value computed is

    S[r,u]   = ∑_d rm[r,d] · wm[u,d]                                   (similarities)
    τ[r]     = (∑_u S[r,u]) / 64                                         (row mean)
    L[r,u]   = (if S[r,u] ≥ τ[r] then S[r,u] else −10⁴) · 9              (weak-match filter, scaled)
    M[r]     = max_u L[r,u]                                              (fold of max from −∞)
    E[r,u]   = exp (L[r,u] − M[r])
    A[r,u]   = E[r,u] / ∑_u' E[r,u']                                     (softmax row)
    H[r,d]   = ∑_u A[r,u] · wr[u,d]                                      (attended words)
    unit X   = X[r,d] / (√(∑_d' X[r,d']²) + ε)                            (row normalisation)
    score    = (∑_r ∑_d unit rr [r,d] · unit H [r,d]) / 64               (mean cosine)

  Every constant is kept as the f32 word both programs print; none is evaluated.
-/
import Idealize.ShloMosaic.PureOps.Ideal
import Idealize.ShloMosaic.Lib.ValueIdx

noncomputable section

open scoped BigOperators

namespace Cert.FragSim

open Idealize.ShloMosaic Idealize.ShloMosaic.ValueIdx

/-- 64.0 -/
abbrev c64 : EReal := Ideal.ofBits .f32 0x42800000#32
/-- −10000.0, the filter's sentinel -/
abbrev cNeg : EReal := Ideal.ofBits .f32 0xC61C4000#32
/-- 9.0, the softmax temperature -/
abbrev c9 : EReal := Ideal.ofBits .f32 0x41100000#32
/-- −∞, the row maximum's starting value -/
abbrev cNegInf : EReal := Ideal.ofBits .f32 0xFF800000#32
/-- f32(1e-8), the normalisation's ε -/
abbrev cEps : EReal := Ideal.ofBits .f32 0x322BCC77#32

/-- A 64 × 1024 matrix / a 64 × 64 matrix of extended reals. -/
abbrev Mat := Fin 64 → Fin 1024 → EReal
abbrev Sq := Fin 64 → Fin 64 → EReal

/-- Batch `b` of a rank-3 array as a matrix. -/
abbrev row {B : Nat} (X : (⟨3, ![B, 64, 1024]⟩ : Shape).Idx → EReal) (b : Fin B) : Mat := fun r d => X (ix3 b r d)
/-- Batch `b` of a rank-3 array with square trailing axes. -/
abbrev rowSq {B : Nat} (X : (⟨3, ![B, 64, 64]⟩ : Shape).Idx → EReal) (b : Fin B) : Sq := fun r u => X (ix3 b r u)

/-- S[r,u] = ∑_d rm[r,d] · wm[u,d]. -/
def sim (rm wm : Mat) : Sq := fun r u => ∑ d : Fin 1024, rm r d * wm u d
/-- τ[r], the mean of row r. -/
def tau (S : Sq) (r : Fin 64) : EReal := Ideal.div (∑ u : Fin 64, S r u) c64
/-- Entries below their row's mean are replaced by the sentinel; everything is scaled by 9. -/
def logit (S : Sq) : Sq := fun r u => Scalar.select (Ideal.cmp .oge (S r u) (tau S r)) (S r u) cNeg * c9
/-- The row maximum, folded from −∞. -/
def rowMax (L : Sq) (r : Fin 64) : EReal := (Finset.univ : Finset (Fin 64)).fold max cNegInf (fun u => L r u)
/-- exp (L − row maximum). -/
def expo (L : Sq) : Sq := fun r u => Ideal.exp (L r u - rowMax L r)
/-- Each row divided by its sum. -/
def attn (E : Sq) : Sq := fun r u => Ideal.div (E r u) (∑ u' : Fin 64, E r u')
/-- H[r,d] = ∑_u A[r,u] · wr[u,d]. -/
def mix (A : Sq) (wr : Mat) : Mat := fun r d => ∑ u : Fin 64, A r u * wr u d
/-- √(∑_d X[r,d]²) + ε. -/
def rowNorm (X : Mat) (r : Fin 64) : EReal := Ideal.sqrt (∑ d : Fin 1024, X r d * X r d) + cEps
/-- A row divided by its (ε-shifted) Euclidean norm. -/
def unitRow (X : Mat) : Mat := fun r d => Ideal.div (X r d) (rowNorm X r)
/-- The attended, normalised words of one batch element. -/
def attended (rm wm wr : Mat) : Mat := unitRow (mix (attn (expo (logit (sim rm wm)))) wr)
/-- The mean over regions of the cosine between a region and its attended words. -/
def cosMean (V H : Mat) : EReal := Ideal.div (∑ r : Fin 64, ∑ d : Fin 1024, V r d * H r d) c64
/-- The whole per-batch score. -/
def score (rm wm rr wr : Mat) : EReal := cosMean (unitRow rr) (attended rm wm wr)

end Cert.FragSim

end
-- ==== Proof.RefScore.lean ====
/-
  The reference program's result, read at batch b, is the per-batch score of batch b's four matrices.
-/
import proofs.«106270_j85452669321805_1_alg».proof.Proof.Spec
import proofs.«106270_j85452669321805_1_alg».proof.Proof.Gen.ReferenceIdeal.Read

noncomputable section

open scoped BigOperators

namespace Cert.FragSim.Ref

open Idealize.ShloMosaic Idealize.ShloMosaic.ValueIdx Cert.FragSim
open Cert.ReferenceIdeal Cert.ReferenceIdeal.Read

/-- Two rank-3 (rank-2) indices agree as soon as their coordinates do; every coordinate here computes. -/
local macro "idx3" : tactic =>
  `(tactic| (funext a; match a with | ⟨0, _⟩ => rfl | ⟨1, _⟩ => rfl | ⟨2, _⟩ => rfl))
local macro "idx2" : tactic =>
  `(tactic| (funext a; match a with | ⟨0, _⟩ => rfl | ⟨1, _⟩ => rfl))

section Stages

variable (x0 x1 x2 x3 : FVec Ideal S512x64x1024 .f32) (b : Fin 512)

/-- Batch `b`'s similarities, logits, exponentials, softmax rows and attended words. -/
abbrev simB : Sq := sim (row x0 b) (row x1 b)
abbrev logB : Sq := logit (simB x0 x1 b)
abbrev expB : Sq := expo (logB x0 x1 b)
abbrev attB : Sq := attn (expB x0 x1 b)
abbrev mixB : Mat := mix (attB x0 x1 b) (row x3 b)

/-- S = rm · wmᵀ: the first contraction, at (b, r, u), is the sum over d of rm[r,d] · wm[u,d]. -/
theorem v0_at (r u : Fin 64) :
    val_main_v0 (F := Ideal) x0 x1 (ix3 b r u) = simB x0 x1 b r u := by
  rw [val_main_v0_apply]
  unfold simB sim
  refine Finset.sum_congr rfl fun k _ => ?_
  exact congrArg₂ (· * ·) (congrArg x0 (by idx3)) (congrArg x1 (by idx3))

/-- The row sums of S (the sum starts from the word 0, which is the real 0). -/
theorem v1_at (r : Fin 64) :
    val_main_v1 (F := Ideal) x0 x1 (ix2 b r) = ∑ u : Fin 64, simB x0 x1 b r u := by
  rw [val_main_v1_apply, val_main_cst_apply, Ideal.ofBits_def, Ideal.ofBits_zero_f32, zero_add]
  refine Finset.sum_congr rfl fun k _ => ?_
  rw [show idx_main_v1 (ix2 b r) k = ix3 b r k from by idx3]
  exact v0_at x0 x1 b r k

/-- The row mean τ, broadcast along the row. -/
theorem v5_at (r u : Fin 64) :
    val_main_v5 (F := Ideal) x0 x1 (ix3 b r u) = tau (simB x0 x1 b) r := by
  rw [val_main_v5_apply, val_main_v4_apply, val_main_v2_apply, val_main_v3_apply, val_main_cst_0_apply,
    show idx_main_v2 (idx_main_v5 (ix3 b r u)) = ix2 b r from by idx2, v1_at]
  rfl

/-- The filtered, scaled logits. -/
theorem v9_at (r u : Fin 64) :
    val_main_v9 (F := Ideal) x0 x1 (ix3 b r u) = logB x0 x1 b r u := by
  rw [val_main_v9_apply, val_main_v7_apply, val_main_v6_apply, val_main_v8_apply, val_main_cst_2_apply,
    val_main_call0_v1_apply, val_main_call0_v0_apply, val_main_cst_1_apply, v5_at, v0_at]
  rfl

/-- The row maximum of the logits: the host's fold of the maximum from −∞ along the last axis. -/
theorem v10_at (r : Fin 64) :
    val_main_v10 (F := Ideal) x0 x1 (ix2 b r) = rowMax (logB x0 x1 b) r := by
  unfold val_main_v10
  rw [Host.reduce_eq_fold_single FloatOps.maximumf _ _ Gen.reducesTo_S512x64x64_S512x64_d2 (by decide) Gen.h_S_]
  unfold rowMax
  refine congrArg (fun f => Finset.fold max cNegInf f Finset.univ) (funext fun u => ?_)
  refine Eq.trans (congrArg (val_main_v9 (F := Ideal) x0 x1) ?_) (v9_at x0 x1 b r u)
  exact funext fun a => Fin.ext (by match a with | ⟨0, _⟩ => rfl | ⟨1, _⟩ => rfl | ⟨2, _⟩ => rfl)

/-- Taking the maximum with −∞ once more changes nothing: the fold already starts there. -/
theorem v12_at (r : Fin 64) :
    val_main_v12 (F := Ideal) x0 x1 (ix2 b r) = rowMax (logB x0 x1 b) r := by
  rw [val_main_v12_apply, val_main_v11_apply, val_main_cst_4_apply, v10_at]
  show max cNegInf (rowMax (logB x0 x1 b) r) = rowMax (logB x0 x1 b) r
  unfold rowMax
  exact max_eq_right ((Finset.le_fold_max _).2 (Or.inl le_rfl))

/-- exp (L − row maximum). -/
theorem v16_at (r u : Fin 64) :
    val_main_v16 (F := Ideal) x0 x1 (ix3 b r u) = expB x0 x1 b r u := by
  rw [val_main_v16_apply, val_main_v15_apply, val_main_v14_apply, val_main_v13_apply, v9_at,
    show idx_main_v13 (idx_main_v14 (ix3 b r u)) = ix2 b r from by idx2, v12_at]
  rfl

/-- The row sums of the exponentials. -/
theorem v17_at (r : Fin 64) :
    val_main_v17 (F := Ideal) x0 x1 (ix2 b r) = ∑ u : Fin 64, expB x0 x1 b r u := by
  rw [val_main_v17_apply, val_main_cst_5_apply, Ideal.ofBits_def, Ideal.ofBits_zero_f32, zero_add]
  refine Finset.sum_congr rfl fun k _ => ?_
  rw [show idx_main_v17 (ix2 b r) k = ix3 b r k from by idx3]
  exact v16_at x0 x1 b r k

/-- The softmax rows. -/
theorem v20_at (r u : Fin 64) :
    val_main_v20 (F := Ideal) x0 x1 (ix3 b r u) = attB x0 x1 b r u := by
  rw [val_main_v20_apply, val_main_v19_apply, val_main_v18_apply, v16_at,
    show idx_main_v18 (idx_main_v19 (ix3 b r u)) = ix2 b r from by idx2, v17_at]
  rfl

/-- H = A · wr: the second contraction, at (b, r, d), is the sum over u of A[r,u] · wr[u,d]. -/
theorem v21_at (r : Fin 64) (d : Fin 1024) :
    val_main_v21 (F := Ideal) x0 x1 x3 (ix3 b r d) = mixB x0 x1 x3 b r d := by
  rw [val_main_v21_apply]
  unfold mixB mix
  refine Finset.sum_congr rfl fun k _ => ?_
  rw [show lidx_main_v21 (ix3 b r d) k = ix3 b r k from by idx3,
    show ridx_main_v21 (ix3 b r d) k = ix3 b k d from by idx3, v20_at]

/-- The squared length of row r of H. -/
theorem call1_v1_at (r : Fin 64) :
    val_main_call1_v1 (F := Ideal) x0 x1 x3 (ix2 b r)
      = ∑ d : Fin 1024, mixB x0 x1 x3 b r d * mixB x0 x1 x3 b r d := by
  rw [val_main_call1_v1_apply, val_main_call1_cst_apply, Ideal.ofBits_def, Ideal.ofBits_zero_f32, zero_add]
  refine Finset.sum_congr rfl fun k _ => ?_
  rw [val_main_call1_v0_apply, show idx_main_call1_v1 (ix2 b r) k = ix3 b r k from by idx3, v21_at]
  rfl

/-- The attended words, row-normalised. -/
theorem v26_at (r : Fin 64) (d : Fin 1024) :
    val_main_v26 (F := Ideal) x0 x1 x3 (ix3 b r d) = attended (row x0 b) (row x1 b) (row x3 b) r d := by
  rw [val_main_v26_apply, val_main_v25_apply, val_main_v24_apply, val_main_v22_apply, val_main_call1_v2_apply,
    val_main_v23_apply, val_main_cst_6_apply, v21_at,
    show idx_main_call1_v2 (idx_main_v25 (ix3 b r d)) = ix2 b r from by idx2, call1_v1_at]
  rfl

/-- The squared length of row r of the raw regions. -/
theorem call2_v1_at (r : Fin 64) :
    val_main_call2_v1 (F := Ideal) x2 (ix2 b r) = ∑ d : Fin 1024, row x2 b r d * row x2 b r d := by
  rw [val_main_call2_v1_apply, val_main_call2_cst_apply, Ideal.ofBits_def, Ideal.ofBits_zero_f32, zero_add]
  refine Finset.sum_congr rfl fun k _ => ?_
  rw [val_main_call2_v0_apply, show idx_main_call2_v1 (ix2 b r) k = ix3 b r k from by idx3]
  rfl

/-- The raw regions, row-normalised. -/
theorem v31_at (r : Fin 64) (d : Fin 1024) :
    val_main_v31 (F := Ideal) x2 (ix3 b r d) = unitRow (row x2 b) r d := by
  rw [val_main_v31_apply, val_main_v30_apply, val_main_v29_apply, val_main_v27_apply, val_main_call2_v2_apply,
    val_main_v28_apply, val_main_cst_7_apply,
    show idx_main_call2_v2 (idx_main_v30 (ix3 b r d)) = ix2 b r from by idx2, call2_v1_at]
  rfl

/-- The cosine of row r, before the mean. -/
theorem v33_at (r : Fin 64) :
    val_main_v33 (F := Ideal) x0 x1 x2 x3 (ix2 b r)
      = ∑ d : Fin 1024, unitRow (row x2 b) r d * attended (row x0 b) (row x1 b) (row x3 b) r d := by
  rw [val_main_v33_apply, val_main_cst_8_apply, Ideal.ofBits_def, Ideal.ofBits_zero_f32, zero_add]
  refine Finset.sum_congr rfl fun k _ => ?_
  rw [val_main_v32_apply, show idx_main_v33 (ix2 b r) k = ix3 b r k from by idx3, v31_at, v26_at]
  rfl

/-- The sum of the 64 cosines. -/
theorem v34_at :
    val_main_v34 (F := Ideal) x0 x1 x2 x3 (ix1 b)
      = ∑ r : Fin 64, ∑ d : Fin 1024, unitRow (row x2 b) r d * attended (row x0 b) (row x1 b) (row x3 b) r d := by
  rw [val_main_v34_apply, val_main_cst_9_apply, Ideal.ofBits_def, Ideal.ofBits_zero_f32, zero_add]
  refine Finset.sum_congr rfl fun k _ => ?_
  rw [show idx_main_v34 (ix1 b) k = ix2 b k from by idx2]
  exact v33_at x0 x1 x2 x3 b k

end Stages

/-- The reference's last stage at batch `b` is `score` of that batch's rows of the four arguments
    (regions_m, words_m, regions_raw, words_raw). -/
theorem ref_score (x0 x1 x2 x3 : FVec Ideal S512x64x1024 .f32) (b : Fin 512) :
    val_main_v36 (F := Ideal) x0 x1 x2 x3 (ix1 b) = score (row x0 b) (row x1 b) (row x2 b) (row x3 b) := by
  rw [val_main_v36_apply, val_main_v35_apply, val_main_cst_10_apply, v34_at]
  rfl

end Cert.FragSim.Ref

end
-- ==== Proof.PayScore.lean ====
/-
  The kernel body's stored value, read at local batch p of a block of eight, is the per-batch score of
  that batch's four matrices inside the blocks.
-/
import proofs.«106270_j85452669321805_1_alg».proof.Proof.Spec
import proofs.«106270_j85452669321805_1_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.FragSim.Pay

open Idealize.ShloMosaic Idealize.ShloMosaic.ValueIdx Cert.FragSim
open Cert.KernelIdeal Cert.KernelIdeal.Gen

/-! ## Reductions, casts and broadcasts read at an index -/

/-- A lane sum of an 8 × 64 × 64 vector at (p, r) is the sum over the last coordinate. -/
theorem sum64_apply (X : FVec Ideal S8x64x64 .f32) (p : Fin 8) (r : Fin 64) :
    multiReduction .add [2] S8x64 X 0x00000000#32 reduces_S8x64x64_S8x64 (.inl rfl) rfl (ix2 p r)
      = ∑ u : Fin 64, X (ix3 p r u) := by
  refine (Ideal.multiReduction_add_single X 0x00000000#32 reduces_S8x64x64_S8x64 (.inl rfl) rfl (ix2 p r)).trans ?_
  refine Finset.sum_congr rfl fun u _ => congrArg X (funext fun a => Fin.ext ?_)
  match a with
  | ⟨0, _⟩ => rfl
  | ⟨1, _⟩ => rfl
  | ⟨2, _⟩ => rfl

/-- A lane sum of an 8 × 64 × 1024 vector at (p, r) is the sum over the last coordinate. -/
theorem sum1024_apply (X : FVec Ideal S8x64x1024 .f32) (p : Fin 8) (r : Fin 64) :
    multiReduction .add [2] S8x64 X 0x00000000#32 reduces_S8x64x1024_S8x64 (.inl rfl) rfl (ix2 p r)
      = ∑ d : Fin 1024, X (ix3 p r d) := by
  refine (Ideal.multiReduction_add_single X 0x00000000#32 reduces_S8x64x1024_S8x64 (.inl rfl) rfl (ix2 p r)).trans ?_
  refine Finset.sum_congr rfl fun d _ => congrArg X (funext fun a => Fin.ext ?_)
  match a with
  | ⟨0, _⟩ => rfl
  | ⟨1, _⟩ => rfl
  | ⟨2, _⟩ => rfl

/-- The sum over the rows of an 8 × 64 vector at p. -/
theorem sumRows_apply (Y : FVec Ideal S8x64 .f32) (p : Fin 8) :
    multiReduction .add [1] S8 Y 0x00000000#32 reduces_S8x64_S8 (.inl rfl) rfl (ix1 p)
      = ∑ r : Fin 64, Y (ix2 p r) := by
  refine (Ideal.multiReduction_add_single Y 0x00000000#32 reduces_S8x64_S8 (.inl rfl) rfl (ix1 p)).trans ?_
  refine Finset.sum_congr rfl fun r _ => congrArg Y (funext fun a => Fin.ext ?_)
  match a with
  | ⟨0, _⟩ => rfl
  | ⟨1, _⟩ => rfl

/-- A lane maximum of an 8 × 64 × 64 vector at (p, r) is the fold of max from −∞ over the last coordinate. -/
theorem max64_apply (X : FVec Ideal S8x64x64 .f32) (p : Fin 8) (r : Fin 64) :
    multiReduction .maximumf [2] S8x64 X 0xFF800000#32 reduces_S8x64x64_S8x64 (.inl rfl) rfl (ix2 p r)
      = (Finset.univ : Finset (Fin 64)).fold max cNegInf (fun u => X (ix3 p r u)) := by
  refine (Ideal.multiReduction_maximumf_single X 0xFF800000#32 reduces_S8x64x64_S8x64 (.inl rfl) rfl (ix2 p r)).trans ?_
  refine Finset.fold_congr fun u _ => congrArg X (funext fun a => Fin.ext ?_)
  match a with
  | ⟨0, _⟩ => rfl
  | ⟨1, _⟩ => rfl
  | ⟨2, _⟩ => rfl

/-- The cast [8,64] → [8,64,1] that adds a trailing unit axis reads the same (p, r). -/
theorem keep_apply (v : FVec Ideal S8x64 .f32) (p : Fin 8) (r : Fin 64) (z : Fin 1) :
    shapeCast S8x64x1 v shapeCasts_S8x64_S8x64x1 (ix3 p r z) = v (ix2 p r) := by
  refine shapeCast_apply v shapeCasts_S8x64_S8x64x1 (ix3 p r z) (ix2 p r) ?_
  rw [Shape.rowMajor_val_two, Shape.rowMajor_val_three]
  show p.val * 64 + r.val = (p.val * 64 + r.val) * 1 + z.val
  omega

/-- The cast [8] → [8,1] reads the same p. -/
theorem keep8_apply (v : FVec Ideal S8 .f32) (p : Fin 8) (z : Fin 1) :
    shapeCast S8x1 v shapeCasts_S8_S8x1 (ix2 p z) = v (ix1 p) := by
  refine shapeCast_apply v shapeCasts_S8_S8x1 (ix2 p z) (ix1 p) ?_
  rw [Shape.rowMajor_val_one, Shape.rowMajor_val_two]
  show p.val = p.val * 1 + z.val
  omega

/-- A column [8,64,1] broadcast along 64 lanes reads the column. -/
theorem bcast64_apply (v : FVec Ideal S8x64x1 .f32) (p : Fin 8) (r : Fin 64) (u : Fin 64) :
    broadcastTo S8x64x64 v broadcasts_S8x64x1_S8x64x64 (ix3 p r u) = v (ix3 p r 0) := by
  refine broadcastTo_apply v broadcasts_S8x64x1_S8x64x64 (ix3 p r u) (ix3 p r 0) fun a => ?_
  match a with
  | ⟨0, _⟩ => rfl
  | ⟨1, _⟩ => rfl
  | ⟨2, _⟩ => rfl

/-- A column [8,64,1] broadcast along 1024 lanes reads the column. -/
theorem bcast1024_apply (v : FVec Ideal S8x64x1 .f32) (p : Fin 8) (r : Fin 64) (d : Fin 1024) :
    broadcastTo S8x64x1024 v broadcasts_S8x64x1_S8x64x1024 (ix3 p r d) = v (ix3 p r 0) := by
  refine broadcastTo_apply v broadcasts_S8x64x1_S8x64x1024 (ix3 p r d) (ix3 p r 0) fun a => ?_
  match a with
  | ⟨0, _⟩ => rfl
  | ⟨1, _⟩ => rfl
  | ⟨2, _⟩ => rfl

/-! ## The two batched matrix products read at an index

The contraction of each product has one axis; its index is re-indexed through that axis's coordinate, and the
operand indices are named coordinate by coordinate: batch and row from the output index, the contracted axis from
the contraction index. -/

theorem lhs_sim_0 (i : S8x64x64.Idx) (q : dot_S8x64x1024_S8x64x1024_S8x64x64_2_2_1_1_0_0.contr.Idx) :
    (dot_S8x64x1024_S8x64x1024_S8x64x64_2_2_1_1_0_0.lhsIdx i q 0).val = (i 0).val := by
  unfold DotDims.lhsIdx
  rw [dif_pos (show (0 : Fin S8x64x1024.rank) ∈ dot_S8x64x1024_S8x64x1024_S8x64x64_2_2_1_1_0_0.lhsBatch by decide)]
  rfl
theorem lhs_sim_1 (i : S8x64x64.Idx) (q : dot_S8x64x1024_S8x64x1024_S8x64x64_2_2_1_1_0_0.contr.Idx) :
    (dot_S8x64x1024_S8x64x1024_S8x64x64_2_2_1_1_0_0.lhsIdx i q 1).val = (i 1).val := by
  unfold DotDims.lhsIdx
  rw [dif_neg (show ¬(1 : Fin S8x64x1024.rank) ∈ dot_S8x64x1024_S8x64x1024_S8x64x64_2_2_1_1_0_0.lhsBatch by decide), dif_pos (show (1 : Fin S8x64x1024.rank) ∈ dot_S8x64x1024_S8x64x1024_S8x64x64_2_2_1_1_0_0.lhsNonContracting by decide)]
  rfl
theorem lhs_sim_2 (i : S8x64x64.Idx) (q : dot_S8x64x1024_S8x64x1024_S8x64x64_2_2_1_1_0_0.contr.Idx) :
    (dot_S8x64x1024_S8x64x1024_S8x64x64_2_2_1_1_0_0.lhsIdx i q 2).val = (q ⟨0, by decide⟩).val :=
  dot_S8x64x1024_S8x64x1024_S8x64x64_2_2_1_1_0_0.lhsIdx_val_of_single rfl i q
theorem rhs_sim_0 (i : S8x64x64.Idx) (q : dot_S8x64x1024_S8x64x1024_S8x64x64_2_2_1_1_0_0.contr.Idx) :
    (dot_S8x64x1024_S8x64x1024_S8x64x64_2_2_1_1_0_0.rhsIdx i q 0).val = (i 0).val := by
  unfold DotDims.rhsIdx
  rw [dif_pos (show (0 : Fin S8x64x1024.rank) ∈ dot_S8x64x1024_S8x64x1024_S8x64x64_2_2_1_1_0_0.rhsBatch by decide)]
  rfl
theorem rhs_sim_1 (i : S8x64x64.Idx) (q : dot_S8x64x1024_S8x64x1024_S8x64x64_2_2_1_1_0_0.contr.Idx) :
    (dot_S8x64x1024_S8x64x1024_S8x64x64_2_2_1_1_0_0.rhsIdx i q 1).val = (i 2).val := by
  unfold DotDims.rhsIdx
  rw [dif_neg (show ¬(1 : Fin S8x64x1024.rank) ∈ dot_S8x64x1024_S8x64x1024_S8x64x64_2_2_1_1_0_0.rhsBatch by decide), dif_pos (show (1 : Fin S8x64x1024.rank) ∈ dot_S8x64x1024_S8x64x1024_S8x64x64_2_2_1_1_0_0.rhsNonContracting by decide)]
  rfl
theorem rhs_sim_2 (i : S8x64x64.Idx) (q : dot_S8x64x1024_S8x64x1024_S8x64x64_2_2_1_1_0_0.contr.Idx) :
    (dot_S8x64x1024_S8x64x1024_S8x64x64_2_2_1_1_0_0.rhsIdx i q 2).val = (q ⟨0, by decide⟩).val :=
  dot_S8x64x1024_S8x64x1024_S8x64x64_2_2_1_1_0_0.rhsIdx_val_of_single rfl i q

/-- The first product at (p, r, u): ∑_d A[p,r,d] · B[p,u,d]. -/
theorem matmulSim_apply (A B : FVec Ideal S8x64x1024 .bf16) (p : Fin 8) (r u : Fin 64) :
    matmul dot_S8x64x1024_S8x64x1024_S8x64x64_2_2_1_1_0_0 none A B (constant S8x64x64 .f32 0x00000000#32) (ix3 p r u)
      = ∑ d : Fin 1024, A (ix3 p r d) * B (ix3 p u d) := by
  simp only [matmul]
  rw [Ideal.matmul_constant_zero_apply, ← Equiv.sum_comp (contrEquiv1 dot_S8x64x1024_S8x64x1024_S8x64x64_2_2_1_1_0_0 1024 rfl rfl).symm]
  refine Finset.sum_congr rfl fun k _ => ?_
  have hk := contrEquiv1_symm_val dot_S8x64x1024_S8x64x1024_S8x64x64_2_2_1_1_0_0 1024 rfl rfl k
  have el : dot_S8x64x1024_S8x64x1024_S8x64x64_2_2_1_1_0_0.lhsIdx (ix3 p r u) ((contrEquiv1 dot_S8x64x1024_S8x64x1024_S8x64x64_2_2_1_1_0_0 1024 rfl rfl).symm k) = ix3 p r k := funext fun a => Fin.ext (by
    match a with
    | ⟨0, _⟩ => exact lhs_sim_0 _ _
    | ⟨1, _⟩ => exact lhs_sim_1 _ _
    | ⟨2, _⟩ => exact (lhs_sim_2 _ _).trans hk)
  have er : dot_S8x64x1024_S8x64x1024_S8x64x64_2_2_1_1_0_0.rhsIdx (ix3 p r u) ((contrEquiv1 dot_S8x64x1024_S8x64x1024_S8x64x64_2_2_1_1_0_0 1024 rfl rfl).symm k) = ix3 p u k := funext fun a => Fin.ext (by
    match a with
    | ⟨0, _⟩ => exact rhs_sim_0 _ _
    | ⟨1, _⟩ => exact rhs_sim_1 _ _
    | ⟨2, _⟩ => exact (rhs_sim_2 _ _).trans hk)
  rw [el, er]

theorem lhs_mix_0 (i : S8x64x1024.Idx) (q : dot_S8x64x64_S8x64x1024_S8x64x1024_2_1_1_2_0_0.contr.Idx) :
    (dot_S8x64x64_S8x64x1024_S8x64x1024_2_1_1_2_0_0.lhsIdx i q 0).val = (i 0).val := by
  unfold DotDims.lhsIdx
  rw [dif_pos (show (0 : Fin S8x64x64.rank) ∈ dot_S8x64x64_S8x64x1024_S8x64x1024_2_1_1_2_0_0.lhsBatch by decide)]
  rfl
theorem lhs_mix_1 (i : S8x64x1024.Idx) (q : dot_S8x64x64_S8x64x1024_S8x64x1024_2_1_1_2_0_0.contr.Idx) :
    (dot_S8x64x64_S8x64x1024_S8x64x1024_2_1_1_2_0_0.lhsIdx i q 1).val = (i 1).val := by
  unfold DotDims.lhsIdx
  rw [dif_neg (show ¬(1 : Fin S8x64x64.rank) ∈ dot_S8x64x64_S8x64x1024_S8x64x1024_2_1_1_2_0_0.lhsBatch by decide), dif_pos (show (1 : Fin S8x64x64.rank) ∈ dot_S8x64x64_S8x64x1024_S8x64x1024_2_1_1_2_0_0.lhsNonContracting by decide)]
  rfl
theorem lhs_mix_2 (i : S8x64x1024.Idx) (q : dot_S8x64x64_S8x64x1024_S8x64x1024_2_1_1_2_0_0.contr.Idx) :
    (dot_S8x64x64_S8x64x1024_S8x64x1024_2_1_1_2_0_0.lhsIdx i q 2).val = (q ⟨0, by decide⟩).val :=
  dot_S8x64x64_S8x64x1024_S8x64x1024_2_1_1_2_0_0.lhsIdx_val_of_single rfl i q
theorem rhs_mix_0 (i : S8x64x1024.Idx) (q : dot_S8x64x64_S8x64x1024_S8x64x1024_2_1_1_2_0_0.contr.Idx) :
    (dot_S8x64x64_S8x64x1024_S8x64x1024_2_1_1_2_0_0.rhsIdx i q 0).val = (i 0).val := by
  unfold DotDims.rhsIdx
  rw [dif_pos (show (0 : Fin S8x64x1024.rank) ∈ dot_S8x64x64_S8x64x1024_S8x64x1024_2_1_1_2_0_0.rhsBatch by decide)]
  rfl
theorem rhs_mix_1 (i : S8x64x1024.Idx) (q : dot_S8x64x64_S8x64x1024_S8x64x1024_2_1_1_2_0_0.contr.Idx) :
    (dot_S8x64x64_S8x64x1024_S8x64x1024_2_1_1_2_0_0.rhsIdx i q 1).val = (q ⟨0, by decide⟩).val :=
  dot_S8x64x64_S8x64x1024_S8x64x1024_2_1_1_2_0_0.rhsIdx_val_of_single rfl i q
theorem rhs_mix_2 (i : S8x64x1024.Idx) (q : dot_S8x64x64_S8x64x1024_S8x64x1024_2_1_1_2_0_0.contr.Idx) :
    (dot_S8x64x64_S8x64x1024_S8x64x1024_2_1_1_2_0_0.rhsIdx i q 2).val = (i 2).val := by
  unfold DotDims.rhsIdx
  rw [dif_neg (show ¬(2 : Fin S8x64x1024.rank) ∈ dot_S8x64x64_S8x64x1024_S8x64x1024_2_1_1_2_0_0.rhsBatch by decide), dif_pos (show (2 : Fin S8x64x1024.rank) ∈ dot_S8x64x64_S8x64x1024_S8x64x1024_2_1_1_2_0_0.rhsNonContracting by decide)]
  rfl

/-- The second product at (p, r, d): ∑_u A[p,r,u] · B[p,u,d]. -/
theorem matmulMix_apply (A : FVec Ideal S8x64x64 .bf16) (B : FVec Ideal S8x64x1024 .bf16) (p : Fin 8) (r : Fin 64) (d : Fin 1024) :
    matmul dot_S8x64x64_S8x64x1024_S8x64x1024_2_1_1_2_0_0 none A B (constant S8x64x1024 .f32 0x00000000#32) (ix3 p r d)
      = ∑ u : Fin 64, A (ix3 p r u) * B (ix3 p u d) := by
  simp only [matmul]
  rw [Ideal.matmul_constant_zero_apply, ← Equiv.sum_comp (contrEquiv1 dot_S8x64x64_S8x64x1024_S8x64x1024_2_1_1_2_0_0 64 rfl rfl).symm]
  refine Finset.sum_congr rfl fun k _ => ?_
  have hk := contrEquiv1_symm_val dot_S8x64x64_S8x64x1024_S8x64x1024_2_1_1_2_0_0 64 rfl rfl k
  have el : dot_S8x64x64_S8x64x1024_S8x64x1024_2_1_1_2_0_0.lhsIdx (ix3 p r d) ((contrEquiv1 dot_S8x64x64_S8x64x1024_S8x64x1024_2_1_1_2_0_0 64 rfl rfl).symm k) = ix3 p r k := funext fun a => Fin.ext (by
    match a with
    | ⟨0, _⟩ => exact lhs_mix_0 _ _
    | ⟨1, _⟩ => exact lhs_mix_1 _ _
    | ⟨2, _⟩ => exact (lhs_mix_2 _ _).trans hk)
  have er : dot_S8x64x64_S8x64x1024_S8x64x1024_2_1_1_2_0_0.rhsIdx (ix3 p r d) ((contrEquiv1 dot_S8x64x64_S8x64x1024_S8x64x1024_2_1_1_2_0_0 64 rfl rfl).symm k) = ix3 p k d := funext fun a => Fin.ext (by
    match a with
    | ⟨0, _⟩ => exact rhs_mix_0 _ _
    | ⟨1, _⟩ => exact (rhs_mix_1 _ _).trans hk
    | ⟨2, _⟩ => exact rhs_mix_2 _ _)
  rw [el, er]

/-! ## The payloads as a chain of stages -/

/-- The lane sum of an 8 × 64 × 64 vector, kept as a column. -/
def colSum64 (X : FVec Ideal S8x64x64 .f32) : FVec Ideal S8x64x1 .f32 :=
  shapeCast S8x64x1 (multiReduction .add [2] S8x64 X 0x00000000#32 reduces_S8x64x64_S8x64 (.inl rfl) rfl) shapeCasts_S8x64_S8x64x1
theorem colSum64_apply (X : FVec Ideal S8x64x64 .f32) (p : Fin 8) (r : Fin 64) (z : Fin 1) :
    colSum64 X (ix3 p r z) = ∑ u : Fin 64, X (ix3 p r u) :=
  (keep_apply _ p r z).trans (sum64_apply X p r)

/-- The lane maximum of an 8 × 64 × 64 vector, kept as a column. -/
def colMax64 (X : FVec Ideal S8x64x64 .f32) : FVec Ideal S8x64x1 .f32 :=
  shapeCast S8x64x1 (multiReduction .maximumf [2] S8x64 X 0xFF800000#32 reduces_S8x64x64_S8x64 (.inl rfl) rfl) shapeCasts_S8x64_S8x64x1
theorem colMax64_apply (X : FVec Ideal S8x64x64 .f32) (p : Fin 8) (r : Fin 64) (z : Fin 1) :
    colMax64 X (ix3 p r z) = (Finset.univ : Finset (Fin 64)).fold max cNegInf (fun u => X (ix3 p r u)) :=
  (keep_apply _ p r z).trans (max64_apply X p r)

/-- The lane sum of an 8 × 64 × 1024 vector, kept as a column. -/
def colSum1024 (X : FVec Ideal S8x64x1024 .f32) : FVec Ideal S8x64x1 .f32 :=
  shapeCast S8x64x1 (multiReduction .add [2] S8x64 X 0x00000000#32 reduces_S8x64x1024_S8x64 (.inl rfl) rfl) shapeCasts_S8x64_S8x64x1
theorem colSum1024_apply (X : FVec Ideal S8x64x1024 .f32) (p : Fin 8) (r : Fin 64) (z : Fin 1) :
    colSum1024 X (ix3 p r z) = ∑ d : Fin 1024, X (ix3 p r d) :=
  (keep_apply _ p r z).trans (sum1024_apply X p r)

/-- Similarities: the first product, on the bf16 casts of the two masked blocks. -/
def kSim (x0 x1 : FVec Ideal S8x64x1024 .f32) : FVec Ideal S8x64x64 .f32 :=
  matmul dot_S8x64x1024_S8x64x1024_S8x64x64_2_2_1_1_0_0 none (truncf .bf16 x0 bitsLt_bf16_f32) (truncf .bf16 x1 bitsLt_bf16_f32)
    (constant S8x64x64 .f32 0x00000000#32)

/-- The weak-match filter against the row mean, scaled by the temperature. -/
def kLogit (S : FVec Ideal S8x64x64 .f32) : FVec Ideal S8x64x64 .f32 :=
  mulf
    (select
      (cmpf .oge S
        (broadcastTo S8x64x64 (divf (colSum64 S) (broadcast S8x64x1 (Scalar.ofBits .f32 0x42800000#32 : Ideal .f32)))
          broadcasts_S8x64x1_S8x64x64))
      S (broadcast S8x64x64 (Scalar.ofBits .f32 0xC61C4000#32 : Ideal .f32)))
    (broadcast S8x64x64 (Scalar.ofBits .f32 0x41100000#32 : Ideal .f32))

/-- exp of the difference to the row maximum. -/
def kExp (L : FVec Ideal S8x64x64 .f32) : FVec Ideal S8x64x64 .f32 :=
  exp (subf L (broadcastTo S8x64x64 (colMax64 L) broadcasts_S8x64x1_S8x64x64))

/-- Each row divided by its sum. -/
def kAttn (E : FVec Ideal S8x64x64 .f32) : FVec Ideal S8x64x64 .f32 :=
  divf E (broadcastTo S8x64x64 (colSum64 E) broadcasts_S8x64x1_S8x64x64)

/-- Attended words: the second product, on the bf16 casts of the weights and the raw words. -/
def kMix (A : FVec Ideal S8x64x64 .f32) (x3 : FVec Ideal S8x64x1024 .f32) : FVec Ideal S8x64x1024 .f32 :=
  matmul dot_S8x64x64_S8x64x1024_S8x64x1024_2_1_1_2_0_0 none (truncf .bf16 A bitsLt_bf16_f32) (truncf .bf16 x3 bitsLt_bf16_f32)
    (constant S8x64x1024 .f32 0x00000000#32)

/-- The ε-shifted Euclidean norm of each row, as a column. -/
def kNorm (X : FVec Ideal S8x64x1024 .f32) : FVec Ideal S8x64x1 .f32 :=
  addf (sqrt (colSum1024 (mulf X X))) (broadcast S8x64x1 (Scalar.ofBits .f32 0x322BCC77#32 : Ideal .f32))

/-- Each row divided by its norm. -/
def kUnit (X : FVec Ideal S8x64x1024 .f32) : FVec Ideal S8x64x1024 .f32 :=
  divf X (broadcastTo S8x64x1024 (kNorm X) broadcasts_S8x64x1_S8x64x1024)

/-- The mean over the rows of the inner products of the normalised raw regions with the attended words. -/
def kCos (v6 H : FVec Ideal S8x64x1024 .f32) : FVec Ideal S8x1 .f32 :=
  divf
    (shapeCast S8x1
      (multiReduction .add [1] S8
        (multiReduction .add [2] S8x64 (mulf (kUnit v6) H) 0x00000000#32 reduces_S8x64x1024_S8x64 (.inl rfl) rfl)
        0x00000000#32 reduces_S8x64_S8 (.inl rfl) rfl)
      shapeCasts_S8_S8x1)
    (broadcast S8x1 (Scalar.ofBits .f32 0x42800000#32 : Ideal .f32))

/-- The first payload is the chain of the stages. -/
theorem pay2_eq (x0 x1 x3 : FVec Ideal S8x64x1024 .f32) :
    k0_pay2 (F := Ideal) x0 x1 x3 = kUnit (kMix (kAttn (kExp (kLogit (kSim x0 x1)))) x3) := rfl

/-- The second payload is the last stage. -/
theorem pay1_eq (x2 H : FVec Ideal S8x64x1024 .f32) : k0_pay1 (F := Ideal) x2 H = kCos x2 H := rfl

/-! ## Each stage against the specification -/

theorem kSim_apply (x0 x1 : FVec Ideal S8x64x1024 .f32) (p : Fin 8) (r u : Fin 64) :
    kSim x0 x1 (ix3 p r u) = sim (row x0 p) (row x1 p) r u :=
  (matmulSim_apply _ _ p r u).trans rfl

theorem kLogit_apply (S : FVec Ideal S8x64x64 .f32) (p : Fin 8) (r u : Fin 64) :
    kLogit S (ix3 p r u) = logit (rowSq S p) r u := by
  have hτ : broadcastTo S8x64x64 (divf (colSum64 S) (broadcast S8x64x1 (Scalar.ofBits .f32 0x42800000#32 : Ideal .f32)))
      broadcasts_S8x64x1_S8x64x64 (ix3 p r u) = tau (rowSq S p) r := by
    refine (bcast64_apply _ p r u).trans ?_
    show Ideal.div (colSum64 S (ix3 p r 0)) c64 = _
    rw [colSum64_apply]
    rfl
  show Scalar.select (Ideal.cmp .oge (S (ix3 p r u))
      (broadcastTo S8x64x64 (divf (colSum64 S) (broadcast S8x64x1 (Scalar.ofBits .f32 0x42800000#32 : Ideal .f32)))
        broadcasts_S8x64x1_S8x64x64 (ix3 p r u))) (S (ix3 p r u)) cNeg * c9 = _
  rw [hτ]
  rfl

theorem kExp_apply (L : FVec Ideal S8x64x64 .f32) (p : Fin 8) (r u : Fin 64) :
    kExp L (ix3 p r u) = expo (rowSq L p) r u := by
  have hM : broadcastTo S8x64x64 (colMax64 L) broadcasts_S8x64x1_S8x64x64 (ix3 p r u) = rowMax (rowSq L p) r :=
    ((bcast64_apply _ p r u).trans (colMax64_apply L p r 0)).trans rfl
  show Ideal.exp (L (ix3 p r u) - broadcastTo S8x64x64 (colMax64 L) broadcasts_S8x64x1_S8x64x64 (ix3 p r u)) = _
  rw [hM]
  rfl

theorem kAttn_apply (E : FVec Ideal S8x64x64 .f32) (p : Fin 8) (r u : Fin 64) :
    kAttn E (ix3 p r u) = attn (rowSq E p) r u := by
  have hD : broadcastTo S8x64x64 (colSum64 E) broadcasts_S8x64x1_S8x64x64 (ix3 p r u) = ∑ u' : Fin 64, rowSq E p r u' :=
    (bcast64_apply _ p r u).trans (colSum64_apply E p r 0)
  show Ideal.div (E (ix3 p r u)) (broadcastTo S8x64x64 (colSum64 E) broadcasts_S8x64x1_S8x64x64 (ix3 p r u)) = _
  rw [hD]
  rfl

theorem kMix_apply (A : FVec Ideal S8x64x64 .f32) (x3 : FVec Ideal S8x64x1024 .f32) (p : Fin 8) (r : Fin 64) (d : Fin 1024) :
    kMix A x3 (ix3 p r d) = mix (rowSq A p) (row x3 p) r d :=
  (matmulMix_apply _ _ p r d).trans rfl

theorem kNorm_apply (X : FVec Ideal S8x64x1024 .f32) (p : Fin 8) (r : Fin 64) (z : Fin 1) :
    kNorm X (ix3 p r z) = rowNorm (row X p) r := by
  show Ideal.sqrt (colSum1024 (mulf X X) (ix3 p r z)) + cEps = _
  rw [colSum1024_apply]
  rfl

theorem kUnit_apply (X : FVec Ideal S8x64x1024 .f32) (p : Fin 8) (r : Fin 64) (d : Fin 1024) :
    kUnit X (ix3 p r d) = unitRow (row X p) r d := by
  have hN : broadcastTo S8x64x1024 (kNorm X) broadcasts_S8x64x1_S8x64x1024 (ix3 p r d) = rowNorm (row X p) r :=
    (bcast1024_apply _ p r d).trans (kNorm_apply X p r 0)
  show Ideal.div (X (ix3 p r d)) (broadcastTo S8x64x1024 (kNorm X) broadcasts_S8x64x1_S8x64x1024 (ix3 p r d)) = _
  rw [hN]
  rfl

theorem kCos_apply (v6 H : FVec Ideal S8x64x1024 .f32) (p : Fin 8) (z : Fin 1) :
    kCos v6 H (ix2 p z) = cosMean (unitRow (row v6 p)) (row H p) := by
  have hS : shapeCast S8x1
      (multiReduction .add [1] S8
        (multiReduction .add [2] S8x64 (mulf (kUnit v6) H) 0x00000000#32 reduces_S8x64x1024_S8x64 (.inl rfl) rfl)
        0x00000000#32 reduces_S8x64_S8 (.inl rfl) rfl)
      shapeCasts_S8_S8x1 (ix2 p z) = ∑ r : Fin 64, ∑ d : Fin 1024, unitRow (row v6 p) r d * row H p r d := by
    refine (keep8_apply _ p z).trans ?_
    refine (sumRows_apply _ p).trans ?_
    refine Finset.sum_congr rfl fun r _ => ?_
    refine (sum1024_apply _ p r).trans ?_
    refine Finset.sum_congr rfl fun d _ => ?_
    show kUnit v6 (ix3 p r d) * H (ix3 p r d) = _
    rw [kUnit_apply]
  show Ideal.div (shapeCast S8x1
      (multiReduction .add [1] S8
        (multiReduction .add [2] S8x64 (mulf (kUnit v6) H) 0x00000000#32 reduces_S8x64x1024_S8x64 (.inl rfl) rfl)
        0x00000000#32 reduces_S8x64_S8 (.inl rfl) rfl)
      shapeCasts_S8_S8x1 (ix2 p z)) c64 = _
  rw [hS]
  rfl

/-! ## The stages read a batch at a time -/

theorem rowSq_kSim (x0 x1 : FVec Ideal S8x64x1024 .f32) (p : Fin 8) :
    rowSq (kSim x0 x1) p = sim (row x0 p) (row x1 p) :=
  funext fun r => funext fun u => kSim_apply x0 x1 p r u
theorem rowSq_kLogit (S : FVec Ideal S8x64x64 .f32) (p : Fin 8) : rowSq (kLogit S) p = logit (rowSq S p) :=
  funext fun r => funext fun u => kLogit_apply S p r u
theorem rowSq_kExp (L : FVec Ideal S8x64x64 .f32) (p : Fin 8) : rowSq (kExp L) p = expo (rowSq L p) :=
  funext fun r => funext fun u => kExp_apply L p r u
theorem rowSq_kAttn (E : FVec Ideal S8x64x64 .f32) (p : Fin 8) : rowSq (kAttn E) p = attn (rowSq E p) :=
  funext fun r => funext fun u => kAttn_apply E p r u
theorem row_kMix (A : FVec Ideal S8x64x64 .f32) (x3 : FVec Ideal S8x64x1024 .f32) (p : Fin 8) :
    row (kMix A x3) p = mix (rowSq A p) (row x3 p) :=
  funext fun r => funext fun d => kMix_apply A x3 p r d
theorem row_kUnit (X : FVec Ideal S8x64x1024 .f32) (p : Fin 8) : row (kUnit X) p = unitRow (row X p) :=
  funext fun r => funext fun d => kUnit_apply X p r d

/-- The stored [8,1] value at row `p`: `score` of batch `p` of the four loaded blocks
    (x0 = regions_m, x1 = words_m, x2 = regions_raw, x3 = words_raw). -/
theorem pay_score (x0 x1 x2 x3 : FVec Ideal S8x64x1024 .f32) (p : Fin 8) (z : Fin 1) :
    k0_pay1 (F := Ideal) x2 (k0_pay2 (F := Ideal) x0 x1 x3) (ix2 p z)
      = score (row x0 p) (row x1 p) (row x2 p) (row x3 p) := by
  rw [pay2_eq, pay1_eq, kCos_apply, row_kUnit, row_kMix, rowSq_kAttn, rowSq_kExp, rowSq_kLogit, rowSq_kSim]
  rfl

end Cert.FragSim.Pay

end
-- ==== Proof.KernelValue.lean ====
/-
  The kernel's result array as one function of the argument arrays.

  Grid point t works on batches 8t … 8t+7: each input window's block at t is rows 8t … 8t+7 of its
  array (all of the other two axes), and the output block is rows 8t … 8t+7 of the [512, 1] result.
  The body's stored value at local row p is the per-batch score of the blocks' batch p, i.e. of the
  arrays' batch 8t + p.  The 64 blocks tile the result, so after the run the [512, 1] array holds the
  score of batch b at row b; the reshape after the region reads it as a vector of length 512.
-/
import proofs.«106270_j85452669321805_1_alg».proof.Proof.Spec
import proofs.«106270_j85452669321805_1_alg».proof.Proof.PayScore
import proofs.«106270_j85452669321805_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.FragSim.Kernel

open Cert.KernelIdeal Cert.KernelIdeal.Gen Cert.FragSim Idealize.ShloMosaic.ValueIdx

variable (m : (ℓ : Loc nD τ sig) → Buf (Elt Ideal) ℓ) (ρ : Dev nD → PrngReg)

/-- The score of batch `b` of four [512, 64, 1024] arrays. -/
def scoreAt (a0 a1 a2 a3 : FVec Ideal S512x64x1024 .f32) (b : Fin 512) : EReal :=
  score (row a0 b) (row a1 b) (row a2 b) (row a3 b)

/-- The [512, 1] column of scores. -/
def scoreCol (a0 a1 a2 a3 : FVec Ideal S512x64x1024 .f32) : FVec Ideal S512x1 .f32 :=
  fun i => scoreAt a0 a1 a2 a3 (i 0)

/-- The length-512 vector of scores. -/
def scoreVec (a0 a1 a2 a3 : FVec Ideal S512x64x1024 .f32) : FVec Ideal S512 .f32 :=
  fun i => scoreAt a0 a1 a2 a3 (i 0)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: every window's block index on the batch axis is the
    point's number, and 0 on the other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The four input blocks and arrays at their literal types. -/
abbrev blk0 (c : Dev nD) (t : Fin cfg0.N) : FVec Ideal S8x64x1024 .f32 := iblk m c 0 t
abbrev blk1 (c : Dev nD) (t : Fin cfg0.N) : FVec Ideal S8x64x1024 .f32 := iblk m c 1 t
abbrev blk2 (c : Dev nD) (t : Fin cfg0.N) : FVec Ideal S8x64x1024 .f32 := iblk m c 2 t
abbrev blk3 (c : Dev nD) (t : Fin cfg0.N) : FVec Ideal S8x64x1024 .f32 := iblk m c 3 t
abbrev arr0 (c : Dev nD) : FVec Ideal S512x64x1024 .f32 := V m c main_arg0
abbrev arr1 (c : Dev nD) : FVec Ideal S512x64x1024 .f32 := V m c main_arg1
abbrev arr2 (c : Dev nD) : FVec Ideal S512x64x1024 .f32 := V m c main_arg2
abbrev arr3 (c : Dev nD) : FVec Ideal S512x64x1024 .f32 := V m c main_arg3

/-- Batch `p` of point `t`'s block is batch `8t + p` of the array. -/
theorem row_blk0 (c : Dev nD) (t : Fin cfg0.N) (p : Fin 8) (b : Fin 512) (hb : b.val = t.val * 8 + p.val) :
    row (blk0 m c t) p = row (arr0 m c) b := by
  obtain ⟨e0, e1, e2, -⟩ := idx_facts t
  funext r d
  show V m c main_arg0 (((cfg0.win 0).blk t).view.emb (ix3 p r d)) = V m c main_arg0 (ix3 b r d)
  refine congrArg _ (funext fun a => Fin.ext ?_)
  match a with
  | ⟨0, _⟩ => show win0_0.index t (0 : Fin 3) * 8 + 1 * p.val = b.val; omega
  | ⟨1, _⟩ => show win0_0.index t (1 : Fin 3) * 64 + 1 * r.val = r.val; omega
  | ⟨2, _⟩ => show win0_0.index t (2 : Fin 3) * 1024 + 1 * d.val = d.val; omega

theorem row_blk1 (c : Dev nD) (t : Fin cfg0.N) (p : Fin 8) (b : Fin 512) (hb : b.val = t.val * 8 + p.val) :
    row (blk1 m c t) p = row (arr1 m c) b := by
  obtain ⟨-, -, -, e0, e1, e2, -⟩ := idx_facts t
  funext r d
  show V m c main_arg1 (((cfg0.win 1).blk t).view.emb (ix3 p r d)) = V m c main_arg1 (ix3 b r d)
  refine congrArg _ (funext fun a => Fin.ext ?_)
  match a with
  | ⟨0, _⟩ => show win0_1.index t (0 : Fin 3) * 8 + 1 * p.val = b.val; omega
  | ⟨1, _⟩ => show win0_1.index t (1 : Fin 3) * 64 + 1 * r.val = r.val; omega
  | ⟨2, _⟩ => show win0_1.index t (2 : Fin 3) * 1024 + 1 * d.val = d.val; omega

theorem row_blk2 (c : Dev nD) (t : Fin cfg0.N) (p : Fin 8) (b : Fin 512) (hb : b.val = t.val * 8 + p.val) :
    row (blk2 m c t) p = row (arr2 m c) b := by
  obtain ⟨-, -, -, -, -, -, e0, e1, e2, -⟩ := idx_facts t
  funext r d
  show V m c main_arg2 (((cfg0.win 2).blk t).view.emb (ix3 p r d)) = V m c main_arg2 (ix3 b r d)
  refine congrArg _ (funext fun a => Fin.ext ?_)
  match a with
  | ⟨0, _⟩ => show win0_2.index t (0 : Fin 3) * 8 + 1 * p.val = b.val; omega
  | ⟨1, _⟩ => show win0_2.index t (1 : Fin 3) * 64 + 1 * r.val = r.val; omega
  | ⟨2, _⟩ => show win0_2.index t (2 : Fin 3) * 1024 + 1 * d.val = d.val; omega

theorem row_blk3 (c : Dev nD) (t : Fin cfg0.N) (p : Fin 8) (b : Fin 512) (hb : b.val = t.val * 8 + p.val) :
    row (blk3 m c t) p = row (arr3 m c) b := by
  obtain ⟨-, -, -, -, -, -, -, -, -, e0, e1, e2, -⟩ := idx_facts t
  funext r d
  show V m c main_arg3 (((cfg0.win 3).blk t).view.emb (ix3 p r d)) = V m c main_arg3 (ix3 b r d)
  refine congrArg _ (funext fun a => Fin.ext ?_)
  match a with
  | ⟨0, _⟩ => show win0_3.index t (0 : Fin 3) * 8 + 1 * p.val = b.val; omega
  | ⟨1, _⟩ => show win0_3.index t (1 : Fin 3) * 64 + 1 * r.val = r.val; omega
  | ⟨2, _⟩ => show win0_3.index t (2 : Fin 3) * 1024 + 1 * d.val = d.val; omega

/-- What the result array ends holding: the column of scores of the argument arrays as the region finds them. -/
abbrev G (c : Dev nD) : FVec Ideal S512x1 .f32 := scoreCol (arr0 m c) (arr1 m c) (arr2 m c) (arr3 m c)

/-- WHAT POINT `t` WRITES BACK is block `t` of the column of scores. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz2]
  simp only [View.ld_unit_zero (S := S8x64x1024) hz3]
  funext j
  obtain ⟨p, z, rfl⟩ : ∃ (p : Fin 8) (z : Fin 1), j = ix2 p z := ⟨j 0, j 1, eq_ix2 j⟩
  obtain ⟨-, -, -, -, -, -, -, -, -, -, -, -, e0, e1⟩ := idx_facts t
  have ht64 : t.val < 64 := lt_of_lt_of_eq t.isLt N_0
  have hlt : t.val * 8 + p.val < 512 := by have := p.isLt; omega
  show k0_pay1 (F := Ideal) (blk2 m c t) (k0_pay2 (F := Ideal) (blk0 m c t) (blk1 m c t) (blk3 m c t)) (ix2 p z)
    = scoreAt (arr0 m c) (arr1 m c) (arr2 m c) (arr3 m c) ((((cfg0.win 4).blk t).view.emb (ix2 p z)) 0)
  refine (Cert.FragSim.Pay.pay_score (blk0 m c t) (blk1 m c t) (blk2 m c t) (blk3 m c t) p z).trans ?_
  have hb : ((((cfg0.win 4).blk t).view.emb (ix2 p z)) 0 : Fin 512).val = t.val * 8 + p.val := by
    show win0_4.index t (0 : Fin 2) * 8 + 1 * p.val = _; omega
  unfold scoreAt
  rw [row_blk0 m c t p _ hb, row_blk1 m c t p _ hb, row_blk2 m c t p _ hb, row_blk3 m c t p _ hb]

/-- An index of the result is in point `t`'s block iff each coordinate is in the block's range on its axis. -/
theorem mem_blk (t : Fin cfg0.N) (i : S512x1.Idx) :
    i ∈ ((cfg0.win 4).blk t).view.set ↔ ∀ a : Fin 2, win0_4.index t a * S8x1.size a ≤ (i a).val ∧ (i a).val < win0_4.index t a * S8x1.size a + S8x1.size a := by
  show i ∈ ((View.whole main_v0).slice (win0_4.rect t)).set ↔ _
  rw [View.set_slice_whole, Rect.mem_set_unit]
  exact Iff.rfl

/-- Row `b` of the result is in the block of point `b / 8`. -/
theorem cover (i : S512x1.Idx) : ∃ t : Fin cfg0.N, (cfg0.win 4).flush t = true ∧ i ∈ ((cfg0.win 4).blk t).view.set := by
  have hi0 : (i 0).val < 512 := (i 0).isLt
  have hi1 : (i 1).val < 1 := (i 1).isLt
  have hN : grid0.N = 64 := N_0
  let t : Fin cfg0.N := ⟨(i 0).val / 8, by show (i 0).val / 8 < grid0.N; omega⟩
  obtain ⟨-, -, -, -, -, -, -, -, -, -, -, -, e0, e1⟩ := idx_facts t
  have ht : t.val = (i 0).val / 8 := rfl
  refine ⟨t, flush0_4 t, ?_⟩
  rw [mem_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 1 ≤ (i 1).val ∧ (i 1).val < win0_4.index t (1 : Fin 2) * 1 + 1; omega

/-- THE RESULT ARRAY after the region: the column of scores. -/
theorem final (c : Dev nD) : (dats m 0 c).arrAt 4 cfg0.N = G m c :=
  (dats m 0 c).arrAt_eq_of_cover 4 (G m c) (fun t _ => flushed_eq m c t) cover

/-! ## After the region: the reshape, and the whole run -/

/-- The reshaped result is no array of the pipeline and is not scoped. -/
theorem v1_rest : main_v1 ∈ Pipeline.restRefs sig spec0 :=
  Pipeline.mem_restRefs_of main_v1 (by decide) (by decide)

/-- The [512] result after the reshape: the vector of scores of the argument arrays (position b of the
    vector is row b of the [512, 1] column). -/
theorem tail_eq (c : Dev nD) :
    Pipeline.afterTail₀ cfgs (dats m) 0 (V0 m) [hostOps1] c main_v1
      = scoreVec (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v1) = _
  after_results
  funext i
  show shapeCast S512 (Pipeline.withArrays spec0 c (V0 m c) (fun w => (dats m 0 c).arrAt w cfg0.N) (Proc.devRef .tc main_v0)) shapeCasts_S512x1_S512 i = _
  have hA : Pipeline.withArrays spec0 c (V0 m c) (fun w => (dats m 0 c).arrAt w cfg0.N) (Proc.devRef .tc main_v0) = G m c :=
    (Pipeline.withArrays_arr spec0 launch0.win.arr_inj c _ _ 4).trans (final m c)
  rw [hA]
  refine (shapeCast_apply (G m c) shapeCasts_S512x1_S512 i (ix2 (i 0) 0) ?_).trans ?_
  · rw [Shape.rowMajor_val_two, Shape.rowMajor_val_one]
    show (i 0).val * 1 + 0 = (i 0).val
    omega
  · rfl

/-- The run, read: every weakly fair execution ends with the result vector at the scores of the argument
    arrays and the arguments unchanged. -/
theorem run : θ_run defs (onTc (τ := τ) (main (F := Ideal))) ⟨m, fun _ => 0, ρ⟩ fun r => ∀ c : Dev nD,
      r.2.mem ((c.tc : Thread nD τ).loc main_v1)
        = scoreVec (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.FragSim.Kernel

end
-- ==== Proof.lean ====
/-
  The certificate: the fused per-batch attention-cosine kernel against its jnp reference, over the
  extended reals.

  Both programs compute, for each of the 512 batch elements, the same per-batch score of that
  element's four 64 × 1024 matrices (Proof/Spec.lean).  The kernel does it eight batch elements per
  grid point and stores a [512, 1] column that a reshape reads as a vector (Proof/KernelValue.lean,
  over Proof/PayScore.lean); the reference does it on whole arrays (Proof/RefScore.lean).  No
  algebraic law beyond reading sums, maxima and products index by index is needed: the two sides are
  the same composition of exact operations, so the precondition is never opened.  The ideal pass
  rewrote nothing, so `preserves` is trivial.
-/
import proofs.«106270_j85452669321805_1_alg».proof.Defs
import proofs.«106270_j85452669321805_1_alg».proof.Proof.Gen.Kernel
import proofs.«106270_j85452669321805_1_alg».proof.Proof.Gen.Kernel.Skeleton
import proofs.«106270_j85452669321805_1_alg».proof.Proof.Gen.Kernel.Launch
import proofs.«106270_j85452669321805_1_alg».proof.Proof.Gen.Kernel.Points
import proofs.«106270_j85452669321805_1_alg».proof.Proof.Gen.Kernel.Frame
import proofs.«106270_j85452669321805_1_alg».proof.Proof.Gen.KernelIdeal
import proofs.«106270_j85452669321805_1_alg».proof.Proof.Gen.KernelIdeal.Skeleton
import proofs.«106270_j85452669321805_1_alg».proof.Proof.Gen.KernelIdeal.Launch
import proofs.«106270_j85452669321805_1_alg».proof.Proof.Gen.KernelIdeal.Points
import proofs.«106270_j85452669321805_1_alg».proof.Proof.Gen.KernelIdeal.Frame
import proofs.«106270_j85452669321805_1_alg».proof.Proof.Gen.ReferenceIdeal
import proofs.«106270_j85452669321805_1_alg».proof.Proof.Gen.ReferenceIdeal.Run
import proofs.«106270_j85452669321805_1_alg».proof.Proof.Gen.ReferenceIdeal.Read
import proofs.«106270_j85452669321805_1_alg».proof.Proof.Gen.Pre_finite_inputs
import proofs.«106270_j85452669321805_1_alg».proof.Proof.Spec
import proofs.«106270_j85452669321805_1_alg».proof.Proof.RefScore
import proofs.«106270_j85452669321805_1_alg».proof.Proof.KernelValue
import Idealize.ShloMosaic.Adequacy
import Idealize.ShloMosaic.Init

noncomputable section

namespace Cert.Proof

open Idealize.ShloMosaic Idealize.SL.Sem Idealize.ShloMosaic.ValueIdx

/-- The reference's last stage, as a whole vector, is the vector of per-batch scores. -/
theorem ref_eq (a0 a1 a2 a3 : FVec Ideal Cert.ReferenceIdeal.S512x64x1024 .f32) :
    Cert.ReferenceIdeal.Read.val_main_v36 (F := Ideal) a0 a1 a2 a3 = Cert.FragSim.Kernel.scoreVec a0 a1 a2 a3 := by
  funext i
  obtain ⟨b, rfl⟩ : ∃ b : Fin 512, i = ix1 b := ⟨i 0, eq_ix1 i⟩
  exact Cert.FragSim.Ref.ref_score a0 a1 a2 a3 b

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result vector at the per-batch scores of arguments that agree. -/
theorem algebraic : Cert.algebraic_KernelIdeal_ReferenceIdeal := by
  intro m ρ m' ρ' _ hagree
  refine ⟨_, Cert.FragSim.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
